-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S262144 : Shape := ⟨1, ![262144]⟩
abbrev S1024x512 : Shape := ⟨2, ![1024, 512]⟩
abbrev S512 : Shape := ⟨1, ![512]⟩
abbrev S512x2 : Shape := ⟨2, ![512, 2]⟩
abbrev S2 : Shape := ⟨1, ![2]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x2 : S_.BroadcastsInDim S512x2 (![] : Fin 0 → Fin S512x2.rank)
  reducesTo_S512x2_S_d0_1 : S512x2.ReducesTo [0, 1] S_
  bcast_S_S2 : S_.BroadcastsInDim S2 (![] : Fin 0 → Fin S2.rank)
  reducesTo_S2_S_d0 : S2.ReducesTo [0] S_
  bcast_S_S262144 : S_.BroadcastsInDim S262144 (![] : Fin 0 → Fin S262144.rank)
  reducesTo_S262144_S_d0 : S262144.ReducesTo [0] S_

variable [Facts]

def fn_part2 {F : FTy → Type} [FloatOps F] (main_arg2 : IVec S262144 32) (main_v31 : IVec S_ 1) (main_v32 : IVec S262144 32) : IVec S_ 1 :=
  let main_v33 : IVec S262144 1 := cmpi .sge main_arg2 main_v32
  let main_c_13 : IVec S_ 1 := constantI S_ 1 1#1
  let main_v34 : IVec S_ 1 := (fun x v => Host.reduce IntOp.andi x v reducesTo_S262144_S_d0 h_S_) main_v33 main_c_13
  let main_v35 : IVec S_ 1 := andi main_v31 main_v34
  let main_c_14 : IVec S_ 32 := constantI S_ 32 50000#32
  let main_v36 : IVec S262144 32 := broadcastInDim S262144 ![] bcast_S_S262144 main_c_14
  let main_v37 : IVec S262144 1 := cmpi .slt main_arg2 main_v36
  let main_c_15 : IVec S_ 1 := constantI S_ 1 1#1
  let main_v38 : IVec S_ 1 := (fun x v => Host.reduce IntOp.andi x v reducesTo_S262144_S_d0 h_S_) main_v37 main_c_15
  let main_v39 : IVec S_ 1 := andi main_v35 main_v38
  main_v39

def fn_part1 {F : FTy → Type} [FloatOps F] (main_arg1 : IVec S262144 32) (main_arg2 : IVec S262144 32) (main_arg6 : FVec F S2 .f32) (main_v13 : IVec S_ 1) (main_v16 : IVec S512x2 1) : IVec S_ 1 :=
  let main_c_5 : IVec S_ 1 := constantI S_ 1 1#1
  let main_v17 : IVec S_ 1 := (fun x v => Host.reduce IntOp.andi x v reducesTo_S512x2_S_d0_1 h_S_) main_v16 main_c_5
  let main_v18 : IVec S_ 1 := andi main_v13 main_v17
  let main_v19 : FVec F S2 .f32 := Host.absf main_arg6
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_c_8 : IVec S_ 32 := constantI S_ 32 4294917296#32
  let main_v24 : IVec S262144 32 := broadcastInDim S262144 ![] bcast_S_S262144 main_c_8
  let main_v25 : IVec S262144 1 := cmpi .sge main_arg1 main_v24
  let main_c_9 : IVec S_ 1 := constantI S_ 1 1#1
  let main_v26 : IVec S_ 1 := (fun x v => Host.reduce IntOp.andi x v reducesTo_S262144_S_d0 h_S_) main_v25 main_c_9
  let main_v27 : IVec S_ 1 := andi main_v23 main_v26
  let main_c_10 : IVec S_ 32 := constantI S_ 32 50000#32
  let main_v28 : IVec S262144 32 := broadcastInDim S262144 ![] bcast_S_S262144 main_c_10
  let main_v29 : IVec S262144 1 := cmpi .slt main_arg1 main_v28
  let main_c_11 : IVec S_ 1 := constantI S_ 1 1#1
  let main_v30 : IVec S_ 1 := (fun x v => Host.reduce IntOp.andi x v reducesTo_S262144_S_d0 h_S_) main_v29 main_c_11
  let main_v31 : IVec S_ 1 := andi main_v27 main_v30
  let main_c_12 : IVec S_ 32 := constantI S_ 32 4294917296#32
  let main_v32 : IVec S262144 32 := broadcastInDim S262144 ![] bcast_S_S262144 main_c_12
  fn_part2 (F := F) main_arg2 main_v31 main_v32

def fn {F : FTy → Type} [FloatOps F] (main_arg0 : FVec F S50000x256 .f32) (main_arg1 : IVec S262144 32) (main_arg2 : IVec S262144 32) (main_arg3 : FVec F S1024x512 .f32) (main_arg4 : FVec F S512 .f32) (main_arg5 : FVec F S512x2 .f32) (main_arg6 : FVec F S2 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S1024x512 .f32 := Host.absf main_arg3
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x2 .f32 := Host.absf main_arg5
  let main_cst_4 : FVec F S_ .f32 := constant S_ .f32 0x7F800000#32
  let main_v15 : FVec F S512x2 .f32 := broadcastInDim S512x2 ![] bcast_S_S512x2 main_cst_4
  let main_v16 : IVec S512x2 1 := cmpf .olt main_v14 main_v15
  fn_part1 (F := F) main_arg1 main_arg2 main_arg6 main_v13 main_v16
-- ==== Kernel.lean ====
abbrev S50000x256 : Shape := ⟨2, ![50000, 256]⟩
abbrev S262144 : Shape := ⟨1, ![262144]⟩
abbrev S1024x512 : Shape := ⟨2, ![1024, 512]⟩
abbrev S512 : Shape := ⟨1, ![512]⟩
abbrev S512x2 : Shape := ⟨2, ![512, 2]⟩
abbrev S2 : Shape := ⟨1, ![2]⟩
abbrev S_ : Shape := ⟨0, ![]⟩
abbrev S262144x1 : Shape := ⟨2, ![262144, 1]⟩
abbrev S1 : Shape := ⟨1, ![1]⟩
abbrev S1x1 : Shape := ⟨2, ![1, 1]⟩
abbrev S262144x256 : Shape := ⟨2, ![262144, 256]⟩
abbrev S2x512 : Shape := ⟨2, ![2, 512]⟩
abbrev S1x512 : Shape := ⟨2, ![1, 512]⟩
abbrev S1x2 : Shape := ⟨2, ![1, 2]⟩
abbrev S262144x2 : Shape := ⟨2, ![262144, 2]⟩
abbrev S2048x256 : Shape := ⟨2, ![2048, 256]⟩
abbrev S2048x2 : Shape := ⟨2, ![2048, 2]⟩
abbrev S256x512 : Shape := ⟨2, ![256, 512]⟩
abbrev S2048x512 : Shape := ⟨2, ![2048, 512]⟩
abbrev S2048 : Shape := ⟨1, ![2048]⟩
abbrev S2048x1 : Shape := ⟨2, ![2048, 1]⟩

abbrev nBuf : Space → Nat
  | .hbm => 58
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S262144, .i32⟩
  | .hbm, ⟨2, _⟩ => ⟨S262144, .i32⟩
  | .hbm, ⟨3, _⟩ => ⟨S1024x512, .f32⟩
  | .hbm, ⟨4, _⟩ => ⟨S512, .f32⟩
  | .hbm, ⟨5, _⟩ => ⟨S512x2, .f32⟩
  | .hbm, ⟨6, _⟩ => ⟨S2, .f32⟩
  | .hbm, ⟨7, _⟩ => ⟨S_, .i32⟩
  | .hbm, ⟨8, _⟩ => ⟨S262144, .i32⟩
  | .hbm, ⟨9, _⟩ => ⟨S262144, .i1⟩
  | .hbm, ⟨10, _⟩ => ⟨S_, .i32⟩
  | .hbm, ⟨11, _⟩ => ⟨S262144, .i32⟩
  | .hbm, ⟨12, _⟩ => ⟨S262144, .i32⟩
  | .hbm, ⟨13, _⟩ => ⟨S262144, .i32⟩
  | .hbm, ⟨14, _⟩ => ⟨S262144x1, .i32⟩
  | .hbm, ⟨15, _⟩ => ⟨S1, .i32⟩
  | .hbm, ⟨16, _⟩ => ⟨S_, .i32⟩
  | .hbm, ⟨17, _⟩ => ⟨S262144x1, .i32⟩
  | .hbm, ⟨18, _⟩ => ⟨S262144x1, .i1⟩
  | .hbm, ⟨19, _⟩ => ⟨S1x1, .i32⟩
  | .hbm, ⟨20, _⟩ => ⟨S262144x1, .i32⟩
  | .hbm, ⟨21, _⟩ => ⟨S262144x1, .i1⟩
  | .hbm, ⟨22, _⟩ => ⟨S262144x1, .i1⟩
  | .hbm, ⟨23, _⟩ => ⟨S_, .i1⟩
  | .hbm, ⟨24, _⟩ => ⟨S262144, .i1⟩
  | .hbm, ⟨25, _⟩ => ⟨S262144x256, .f32⟩
  | .hbm, ⟨26, _⟩ => ⟨S262144x256, .i1⟩
  | .hbm, ⟨27, _⟩ => ⟨S_, .f32⟩
  | .hbm, ⟨28, _⟩ => ⟨S262144x256, .f32⟩
  | .hbm, ⟨29, _⟩ => ⟨S262144x256, .f32⟩
  | .hbm, ⟨30, _⟩ => ⟨S_, .i32⟩
  | .hbm, ⟨31, _⟩ => ⟨S262144, .i32⟩
  | .hbm, ⟨32, _⟩ => ⟨S262144, .i1⟩
  | .hbm, ⟨33, _⟩ => ⟨S_, .i32⟩
  | .hbm, ⟨34, _⟩ => ⟨S262144, .i32⟩
  | .hbm, ⟨35, _⟩ => ⟨S262144, .i32⟩
  | .hbm, ⟨36, _⟩ => ⟨S262144, .i32⟩
  | .hbm, ⟨37, _⟩ => ⟨S262144x1, .i32⟩
  | .hbm, ⟨38, _⟩ => ⟨S1, .i32⟩
  | .hbm, ⟨39, _⟩ => ⟨S_, .i32⟩
  | .hbm, ⟨40, _⟩ => ⟨S262144x1, .i32⟩
  | .hbm, ⟨41, _⟩ => ⟨S262144x1, .i1⟩
  | .hbm, ⟨42, _⟩ => ⟨S1x1, .i32⟩
  | .hbm, ⟨43, _⟩ => ⟨S262144x1, .i32⟩
  | .hbm, ⟨44, _⟩ => ⟨S262144x1, .i1⟩
  | .hbm, ⟨45, _⟩ => ⟨S262144x1, .i1⟩
  | .hbm, ⟨46, _⟩ => ⟨S_, .i1⟩
  | .hbm, ⟨47, _⟩ => ⟨S262144, .i1⟩
  | .hbm, ⟨48, _⟩ => ⟨S262144x256, .f32⟩
  | .hbm, ⟨49, _⟩ => ⟨S262144x256, .i1⟩
  | .hbm, ⟨50, _⟩ => ⟨S_, .f32⟩
  | .hbm, ⟨51, _⟩ => ⟨S262144x256, .f32⟩
  | .hbm, ⟨52, _⟩ => ⟨S262144x256, .f32⟩
  | .hbm, ⟨53, _⟩ => ⟨S1024x512, .bf16⟩
  | .hbm, ⟨54, _⟩ => ⟨S2x512, .f32⟩
  | .hbm, ⟨55, _⟩ => ⟨S1x512, .f32⟩
  | .hbm, ⟨56, _⟩ => ⟨S1x2, .f32⟩
  | .hbm, ⟨57, _⟩ => ⟨S262144x2, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1024x512, .bf16⟩
  | .local _ .vmem, ⟨5, _⟩ => ⟨S1x512, .f32⟩
  | .local _ .vmem, ⟨6, _⟩ => ⟨S2x512, .f32⟩
  | .local _ .vmem, ⟨7, _⟩ => ⟨S1x2, .f32⟩
  | .local _ .vmem, ⟨8, _⟩ => ⟨S2048x2, .f32⟩
  | .local _ .vmem, ⟨9, _⟩ => ⟨S2048x2, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v1 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  h_S_ : 0 < S_.numel
  bcast_S262144_S262144x256_0 : S262144.BroadcastsInDim S262144x256 (![0] : Fin 1 → Fin S262144x256.rank)
  bcast_S_S262144x256 : S_.BroadcastsInDim S262144x256 (![] : Fin 0 → Fin S262144x256.rank)
  bitsLt_bf16_f32 : FTy.bits .bf16 < FTy.bits .f32
  transposes_S512x2_S2x512_1_0 : S512x2.Transposes [1, 0] S2x512
  shapeCasts_S512_S1x512 : S512.ShapeCasts S1x512
  shapeCasts_S2_S1x2 : S2.ShapeCasts S1x2
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S1024x512_o0_0_S256x512 : S1024x512.Slices ![0, 0] S256x512
  slices_S1024x512_o256_0_S256x512 : S1024x512.Slices ![256, 0] S256x512
  slices_S1024x512_o512_0_S256x512 : S1024x512.Slices ![512, 0] S256x512
  slices_S1024x512_o768_0_S256x512 : S1024x512.Slices ![768, 0] S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2x512_S2x512_0_0 : ∀ a, (![0, 0] : Fin 2 → Nat) a + S2x512.size a ≤ S2x512.size a
  h_S2x512 : 0 < S2x512.numel
  shapeCasts_S2x512_S2x512 : S2x512.ShapeCasts S2x512
  inb_S1x2_S1x2_0_0 : ∀ a, (![0, 0] : Fin 2 → Nat) a + S1x2.size a ≤ S1x2.size a
  h_S1x2 : 0 < S1x2.numel
  shapeCasts_S1x2_S1x2 : S1x2.ShapeCasts S1x2
  slices_S2x512_o0_0_S1x512 : S2x512.Slices ![0, 0] S1x512
  reduces_S2048x512_S2048 : S2048x512.Reduces [1] S2048
  shapeCasts_S2048_S2048x1 : S2048.ShapeCasts S2048x1
  slices_S1x2_o0_0_S1x1 : S1x2.Slices ![0, 0] S1x1
  broadcasts_S1x1_S2048x1 : S1x1.Broadcasts S2048x1
  slices_S2x512_o1_0_S1x512 : S2x512.Slices ![1, 0] S1x512
  slices_S1x2_o0_1_S1x1 : S1x2.Slices ![0, 1] S1x1
  concatenates_S2048x1_S2048x1_S2048x2_d1 : Shape.Concatenates [S2048x1, S2048x1] S2048x2 1
  inb_S2048x2_S2048x2_0_0 : ∀ a, (![0, 0] : Fin 2 → Nat) a + S2048x2.size a ≤ S2048x2.size a
  h_S2048x2 : 0 < S2048x2.numel
  gather_S50000x256_S262144x1_S262144x256_1_0_n_n_0_1_1256_wf : GatherDims.WF S50000x256 S262144x1 S262144x256 [1] [0] [] [0] [] 1 ![1, 256]
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S262144x256.size a
  hwx0_1 : ∀ i : grid0.Coords, EltTy.bits .f32 = 32 ∨ (Rect.block (s := S262144x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x512.size a ≤ S2x512.size a
  hwx0_4 : ∀ i : grid0.Coords, EltTy.bits .f32 = 32 ∨ (Rect.block (s := S2x512) S2x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2.size a ≤ S1x2.size a
  hwx0_5 : ∀ i : grid0.Coords, EltTy.bits .f32 = 32 ∨ (Rect.block (s := S1x2) S1x2.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x2.size a ≤ S262144x2.size a
  hwx0_6 : ∀ i : grid0.Coords, EltTy.bits .f32 = 32 ∨ (Rect.block (s := S262144x2) S2048x2.size (cc0_transform_6 i) (hinb0_6 i)).WholeWords (EltTy.packing .f32)

variable [Facts₀]

def gather_S50000x256_S262144x1_S262144x256_1_0_n_n_0_1_1256 : GatherDims S50000x256 S262144x1 S262144x256 where
  offsetDims := [1]
  collapsedSliceDims := [0]
  operandBatchingDims := []
  startIndicesBatchingDims := []
  startIndexMap := [0]
  indexVectorDim := 1
  sliceSizes := ![1, 256]
  wf := gather_S50000x256_S262144x1_S262144x256_1_0_n_n_0_1_1256_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S2048x2.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x256 : Shape := ⟨2, ![50000, 256]⟩
abbrev S262144 : Shape := ⟨1, ![262144]⟩
abbrev S1024x512 : Shape := ⟨2, ![1024, 512]⟩
abbrev S512 : Shape := ⟨1, ![512]⟩
abbrev S512x2 : Shape := ⟨2, ![512, 2]⟩
abbrev S2 : Shape := ⟨1, ![2]⟩
abbrev S_ : Shape := ⟨0, ![]⟩
abbrev S262144x1 : Shape := ⟨2, ![262144, 1]⟩
abbrev S262144x256 : Shape := ⟨2, ![262144, 256]⟩
abbrev S262144x1024 : Shape := ⟨2, ![262144, 1024]⟩
abbrev S262144x512 : Shape := ⟨2, ![262144, 512]⟩
abbrev S1x512 : Shape := ⟨2, ![1, 512]⟩
abbrev S262144x2 : Shape := ⟨2, ![262144, 2]⟩
abbrev S1x2 : Shape := ⟨2, ![1, 2]⟩

abbrev nBuf : Space → Nat
  | .hbm => 40
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S262144, .i32⟩
  | .hbm, ⟨2, _⟩ => ⟨S262144, .i32⟩
  | .hbm, ⟨3, _⟩ => ⟨S1024x512, .f32⟩
  | .hbm, ⟨4, _⟩ => ⟨S512, .f32⟩
  | .hbm, ⟨5, _⟩ => ⟨S512x2, .f32⟩
  | .hbm, ⟨6, _⟩ => ⟨S2, .f32⟩
  | .hbm, ⟨7, _⟩ => ⟨S_, .i32⟩
  | .hbm, ⟨8, _⟩ => ⟨S262144, .i32⟩
  | .hbm, ⟨9, _⟩ => ⟨S262144, .i1⟩
  | .hbm, ⟨10, _⟩ => ⟨S_, .i32⟩
  | .hbm, ⟨11, _⟩ => ⟨S262144, .i32⟩
  | .hbm, ⟨12, _⟩ => ⟨S262144, .i32⟩
  | .hbm, ⟨13, _⟩ => ⟨S262144, .i32⟩
  | .hbm, ⟨14, _⟩ => ⟨S262144x1, .i32⟩
  | .hbm, ⟨15, _⟩ => ⟨S262144x256, .f32⟩
  | .hbm, ⟨16, _⟩ => ⟨S_, .i32⟩
  | .hbm, ⟨17, _⟩ => ⟨S262144, .i32⟩
  | .hbm, ⟨18, _⟩ => ⟨S262144, .i1⟩
  | .hbm, ⟨19, _⟩ => ⟨S_, .i32⟩
  | .hbm, ⟨20, _⟩ => ⟨S262144, .i32⟩
  | .hbm, ⟨21, _⟩ => ⟨S262144, .i32⟩
  | .hbm, ⟨22, _⟩ => ⟨S262144, .i32⟩
  | .hbm, ⟨23, _⟩ => ⟨S262144x1, .i32⟩
  | .hbm, ⟨24, _⟩ => ⟨S262144x256, .f32⟩
  | .hbm, ⟨25, _⟩ => ⟨S262144x256, .f32⟩
  | .hbm, ⟨26, _⟩ => ⟨S262144x256, .f32⟩
  | .hbm, ⟨27, _⟩ => ⟨S262144x256, .f32⟩
  | .hbm, ⟨28, _⟩ => ⟨S262144x1024, .f32⟩
  | .hbm, ⟨29, _⟩ => ⟨S262144x512, .f32⟩
  | .hbm, ⟨30, _⟩ => ⟨S1x512, .f32⟩
  | .hbm, ⟨31, _⟩ => ⟨S262144x512, .f32⟩
  | .hbm, ⟨32, _⟩ => ⟨S262144x512, .f32⟩
  | .hbm, ⟨33, _⟩ => ⟨S_, .f32⟩
  | .hbm, ⟨34, _⟩ => ⟨S262144x512, .f32⟩
  | .hbm, ⟨35, _⟩ => ⟨S262144x512, .f32⟩
  | .hbm, ⟨36, _⟩ => ⟨S262144x2, .f32⟩
  | .hbm, ⟨37, _⟩ => ⟨S1x2, .f32⟩
  | .hbm, ⟨38, _⟩ => ⟨S262144x2, .f32⟩
  | .hbm, ⟨39, _⟩ => ⟨S262144x2, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  concatenates_S262144x256_S262144x256_S262144x256_S262144x256_S262144x1024_d1 : Shape.Concatenates [S262144x256, S262144x256, S262144x256, S262144x256] S262144x1024 1
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  bcast_S_S262144x512 : S_.BroadcastsInDim S262144x512 (![] : Fin 0 → Fin S262144x512.rank)
  bcast_S2_S1x2_1 : S2.BroadcastsInDim S1x2 (![1] : Fin 1 → Fin S1x2.rank)
  bcast_S1x2_S262144x2_0_1 : S1x2.BroadcastsInDim S262144x2 (![0, 1] : Fin 2 → Fin S262144x2.rank)
  gather_S50000x256_S262144x1_S262144x256_1_0_n_n_0_1_1256_wf : GatherDims.WF S50000x256 S262144x1 S262144x256 [1] [0] [] [0] [] 1 ![1, 256]
  dot_S262144x1024_S1024x512_S262144x512_1_0_0_1_n_n_wf : DotDims.WF S262144x1024 S1024x512 S262144x512 [1] [0] [0] [1] [] []
  dot_S262144x512_S512x2_S262144x2_1_0_0_1_n_n_wf : DotDims.WF S262144x512 S512x2 S262144x2 [1] [0] [0] [1] [] []

variable [Facts₀]

def gather_S50000x256_S262144x1_S262144x256_1_0_n_n_0_1_1256 : GatherDims S50000x256 S262144x1 S262144x256 where
  offsetDims := [1]
  collapsedSliceDims := [0]
  operandBatchingDims := []
  startIndicesBatchingDims := []
  startIndexMap := [0]
  indexVectorDim := 1
  sliceSizes := ![1, 256]
  wf := gather_S50000x256_S262144x1_S262144x256_1_0_n_n_0_1_1256_wf
def dot_S262144x1024_S1024x512_S262144x512_1_0_0_1_n_n : DotDims S262144x1024 S1024x512 S262144x512 where
  lhsContracting := [1]
  rhsContracting := [0]
  lhsNonContracting := [0]
  rhsNonContracting := [1]
  lhsBatch := []
  rhsBatch := []
  wf := dot_S262144x1024_S1024x512_S262144x512_1_0_0_1_n_n_wf
def dot_S262144x512_S512x2_S262144x2_1_0_0_1_n_n : DotDims S262144x512 S512x2 S262144x2 where
  lhsContracting := [1]
  rhsContracting := [0]
  lhsNonContracting := [0]
  rhsNonContracting := [1]
  lhsBatch := []
  rhsBatch := []
  wf := dot_S262144x512_S512x2_S262144x2_1_0_0_1_n_n_wf

class Facts : Prop extends Facts₀ where

variable [Facts]
-- ==== Proof.Spec.lean ====
/-
  The edge classifier as one function of two node rows and the weights.

  For an edge with endpoint rows `a` and `b` (256 entries each) the network forms the four feature blocks
  `a`, `b`, `|a - b|` and `a · b`, multiplies their concatenation (1024 entries) with the first weight matrix,
  adds the first bias, clamps at zero from below, multiplies with one column of the second weight matrix and adds
  that class's bias.  The product with the 1024-row weight matrix is written here already split into its four
  blocks of 256 rows: row `256·n + j` of the matrix meets entry `j` of feature block `n`.  On the extended reals
  `|x|` is `max x (-x)`.
-/
import Idealize.ShloMosaic.PureOps.Ideal
import Idealize.ShloMosaic.Lib.ValueIdx

noncomputable section

namespace Cert.EdgeMlp

open Idealize.ShloMosaic

/-- Row `j` of block `n` of the first weight matrix: `256·n + j`. -/
def wrow (n : Fin 4) (j : Fin 256) : Fin 1024 :=
  ⟨256 * n.val + j.val, by have := n.isLt; have := j.isLt; omega⟩

theorem wrow_val (n : Fin 4) (j : Fin 256) : (wrow n j).val = 256 * n.val + j.val := rfl

/-- Hidden unit `k` of an edge: the four block products summed in the order
    ((a·W₀ + b·W₁) + |a-b|·W₂) + (a·b)·W₃, plus the bias, clamped at zero. -/
def hidden (a b : Fin 256 → EReal) (w1 : Fin 1024 → Fin 512 → EReal) (β1 : Fin 512 → EReal) (k : Fin 512) : EReal :=
  max (((((∑ j : Fin 256, a j * w1 (wrow 0 j) k) + ∑ j : Fin 256, b j * w1 (wrow 1 j) k)
      + ∑ j : Fin 256, max (a j - b j) (-(a j - b j)) * w1 (wrow 2 j) k)
      + ∑ j : Fin 256, (a j * b j) * w1 (wrow 3 j) k) + β1 k) 0

/-- One class's logit of an edge: the hidden layer against that class's column `w2` of the second weight matrix,
    plus the class bias `β2`. -/
def rowLogit (a b : Fin 256 → EReal) (w1 : Fin 1024 → Fin 512 → EReal) (β1 : Fin 512 → EReal)
    (w2 : Fin 512 → EReal) (β2 : EReal) : EReal :=
  (∑ k : Fin 512, hidden a b w1 β1 k * w2 k) + β2

end Cert.EdgeMlp

end
-- ==== Proof.KernelBlock.lean ====
/-
  What one grid point of the kernel leaves in its output block, entry by entry.

  The body forms, for the 2048 edges of the block, the four feature blocks of the two endpoint rows, multiplies each
  with its 256 rows of the first weight matrix (four products into a zero accumulator, added left to right), adds the
  first bias row, clamps at zero, and then, per class, multiplies with that class's row of the transposed second
  weight matrix, sums over the 512 lanes and adds the class bias; the two columns are joined.  Read at edge `r` and
  class `c` of the block this is `rowLogit` of the block's rows `r`.  A change of float format is the identity on
  the extended reals, and a product into the zero accumulator is the plain sum over the contracted index.
-/
import proofs.«411087_j87471303950752_3_alg».proof.Proof.Spec
import proofs.«411087_j87471303950752_3_alg».proof.Proof.Gen.KernelIdeal.Value
import Idealize.ShloMosaic.Lib.ValueIdx
import Idealize.ShloMosaic.Lib.ValueLayout
import Idealize.ShloMosaic.Lib.Pipeline.Value
import Idealize.ShloMosaic.PureOps.Ideal.Laws

noncomputable section

namespace Cert.EdgeMlp

open Cert.KernelIdeal Cert.KernelIdeal.Gen
open Idealize.ShloMosaic Idealize.ShloMosaic.ValueIdx

/-! ## One block product -/

theorem lhs_blk_0 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem lhs_blk_1 (i : S2048x512.Idx) (q : dot_S2048x256_S256x512_S2048x512_1_0_0_1_n_n.contr.Idx) :
    (dot_S2048x256_S256x512_S2048x512_1_0_0_1_n_n.lhsIdx i q 1).val = (q ⟨0, by decide⟩).val :=
  dot_S2048x256_S256x512_S2048x512_1_0_0_1_n_n.lhsIdx_val_of_single rfl i q
theorem rhs_blk_0 (i : S2048x512.Idx) (q : dot_S2048x256_S256x512_S2048x512_1_0_0_1_n_n.contr.Idx) :
    (dot_S2048x256_S256x512_S2048x512_1_0_0_1_n_n.rhsIdx i q 0).val = (q ⟨0, by decide⟩).val :=
  dot_S2048x256_S256x512_S2048x512_1_0_0_1_n_n.rhsIdx_val_of_single rfl i q
theorem rhs_blk_1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- A [2048,256] block against a [256,512] matrix into the zero accumulator, at edge `r` and hidden unit `k`:
    the sum over the 256 contracted entries. -/
theorem product_apply (A : FVec Ideal S2048x256 .bf16) (B : FVec Ideal S256x512 .bf16) (r : Fin 2048) (k : Fin 512) :
    matmul dot_S2048x256_S256x512_S2048x512_1_0_0_1_n_n none A B (constant S2048x512 .f32 0x00000000#32) (ix2 r k)
      = ∑ j : Fin 256, A (ix2 r j) * B (ix2 j k) := by
  simp only [matmul]
  rw [Ideal.matmul_constant_zero_apply, ← Equiv.sum_comp (ValueIdx.contrEquiv1 dot_S2048x256_S256x512_S2048x512_1_0_0_1_n_n 256 rfl rfl).symm]
  refine Finset.sum_congr rfl fun j _ => ?_
  have hk := ValueIdx.contrEquiv1_symm_val dot_S2048x256_S256x512_S2048x512_1_0_0_1_n_n 256 rfl rfl j
  have el : dot_S2048x256_S256x512_S2048x512_1_0_0_1_n_n.lhsIdx (ix2 r k) ((ValueIdx.contrEquiv1 dot_S2048x256_S256x512_S2048x512_1_0_0_1_n_n 256 rfl rfl).symm j) = ix2 r j := funext fun a => Fin.ext (by
    match a with
    | ⟨0, _⟩ => exact lhs_blk_0 _ _
    | ⟨1, _⟩ => exact (lhs_blk_1 _ _).trans hk)
  have er : dot_S2048x256_S256x512_S2048x512_1_0_0_1_n_n.rhsIdx (ix2 r k) ((ValueIdx.contrEquiv1 dot_S2048x256_S256x512_S2048x512_1_0_0_1_n_n 256 rfl rfl).symm j) = ix2 j k := funext fun a => Fin.ext (by
    match a with
    | ⟨0, _⟩ => exact (rhs_blk_0 _ _).trans hk
    | ⟨1, _⟩ => exact rhs_blk_1 _ _)
  rw [el, er]

/-- The product of feature block `n` with its 256 rows of the (format-changed) first weight matrix. -/
theorem block_product (n : Fin 4) (o : Nat) (ho : o = 256 * n.val) (A : FVec Ideal S2048x256 .bf16) (P2 : FVec Ideal S1024x512 .bf16)
    (hc : S1024x512.ShapeCasts S1024x512) (hs : S1024x512.Slices ![o, 0] S256x512) (r : Fin 2048) (k : Fin 512) :
    matmul dot_S2048x256_S256x512_S2048x512_1_0_0_1_n_n none A
        (extractStridedSlice S256x512 ![o, 0] (shapeCast S1024x512 P2 hc) hs : FVec Ideal S256x512 .bf16)
        (constant S2048x512 .f32 0x00000000#32) (ix2 r k)
      = ∑ j : Fin 256, A (ix2 r j) * P2 (ix2 (wrow n j) k) := by
  refine (product_apply A _ r k).trans (Finset.sum_congr rfl fun j _ => congrArg (A (ix2 r j) * ·) ?_)
  refine (slice2_axis0_apply o _ hs j k (wrow n j) (by rw [wrow_val, ho])).trans ?_
  exact congrFun (shapeCast_self P2 hc) _

/-! ## The hidden layer of the block -/

/-- Hidden unit `k` of edge `r` of the block: the four block products, the bias row, the clamp at zero. -/
theorem hidden_apply (P0 P1 : FVec Ideal S2048x256 .f32) (P2 : FVec Ideal S1024x512 .bf16) (P3 : FVec Ideal S1x512 .f32)
    (r : Fin 2048) (k : Fin 512) :
    k0_pay2 (F := Ideal) P0 P1 P2 P3 (ix2 r k)
      = hidden (fun j => P0 (ix2 r j)) (fun j => P1 (ix2 r j)) (fun q k => P2 (ix2 q k)) (fun k => P3 (ix2 (0 : Fin 1) k)) k := by
  unfold k0_pay2 hidden
  refine (maximumf_apply _ _ _).trans (congrArg₂ max ?_ Ideal.ofBits_zero_f32)
  refine (addf_apply _ _ _).trans (congrArg₂ (· + ·) ?_ ?_)
  · refine (addf_apply _ _ _).trans (congrArg₂ (· + ·) ?_ ?_)
    · refine (addf_apply _ _ _).trans (congrArg₂ (· + ·) ?_ ?_)
      · refine (addf_apply _ _ _).trans (congrArg₂ (· + ·) ?_ ?_)
        · refine (block_product 0 0 rfl _ P2 _ _ r k).trans (Finset.sum_congr rfl fun j _ => ?_)
          exact congrArg (· * P2 (ix2 (wrow 0 j) k)) (congrFun (shapeCast_self P0 _) (ix2 r j))
        · refine (block_product 1 256 rfl _ P2 _ _ r k).trans (Finset.sum_congr rfl fun j _ => ?_)
          exact congrArg (· * P2 (ix2 (wrow 1 j) k)) (congrFun (shapeCast_self P1 _) (ix2 r j))
      · refine (block_product 2 512 rfl _ P2 _ _ r k).trans (Finset.sum_congr rfl fun j _ => ?_)
        refine congrArg (· * P2 (ix2 (wrow 2 j) k)) ?_
        show max (shapeCast S2048x256 P0 _ (ix2 r j) - shapeCast S2048x256 P1 _ (ix2 r j)) (-(shapeCast S2048x256 P0 _ (ix2 r j) - shapeCast S2048x256 P1 _ (ix2 r j))) = _
        rw [shapeCast_self P0, shapeCast_self P1]
    · refine (block_product 3 768 rfl _ P2 _ _ r k).trans (Finset.sum_congr rfl fun j _ => ?_)
      refine congrArg (· * P2 (ix2 (wrow 3 j) k)) ?_
      show shapeCast S2048x256 P0 _ (ix2 r j) * shapeCast S2048x256 P1 _ (ix2 r j) = _
      rw [shapeCast_self P0, shapeCast_self P1]
  · refine (broadcastTo_1b_ab_apply _ _ r k).trans ?_
    exact congrFun (shapeCast_self P3 _) _

/-! ## One class's column of the block -/

/-- The lane reduction's source index over edge `r` with lane `k` inserted is `(r, k)`. -/
theorem lift_lane (hr : S2048x512.Reduces [1] S2048) (r : Fin 2048) (k : Fin (S2048x512.size 1)) :
    hr.lift (ix1 r) k = ix2 r (⟨k.val, k.isLt⟩ : Fin 512) := funext fun a => Fin.ext (by
  match a with
  | ⟨0, _⟩ => rw [Shape.Reduces.lift_val]; simp [Shape.Reduces.liftVal]
  | ⟨1, _⟩ => rw [Shape.Reduces.lift_val]; simp [Shape.Reduces.liftVal])

/-- Class `c` of edge `r`: the hidden layer `H` of the block times row `c` of the transposed second weight
    matrix, summed over the 512 lanes, plus the class bias. (`o` is the slice offset the body carries: the class.) -/
theorem column_apply (H : FVec Ideal S2048x512 .f32) (P4 : FVec Ideal S2x512 .f32) (P5 : FVec Ideal S1x2 .f32)
    (c : Fin 2) (o : Nat) (ho : c.val = o)
    (h4 : S2x512.ShapeCasts S2x512) (hs4 : S2x512.Slices ![o, 0] S1x512) (hb4 : S1x512.Broadcasts S2048x512)
    (hr : S2048x512.Reduces [1] S2048) (hc1 : S2048.ShapeCasts S2048x1)
    (h5 : S1x2.ShapeCasts S1x2) (hs5 : S1x2.Slices ![0, o] S1x1) (hb5 : S1x1.Broadcasts S2048x1) (r : Fin 2048) :
    addf (shapeCast S2048x1 (multiReduction .add [1] S2048
            (mulf H (broadcastTo S2048x512 (extractStridedSlice S1x512 ![o, 0] (shapeCast S2x512 P4 h4) hs4 : FVec Ideal S1x512 .f32) hb4))
            0x00000000#32 hr (.inl rfl) rfl) hc1 : FVec Ideal S2048x1 .f32)
         (broadcastTo S2048x1 (extractStridedSlice S1x1 ![0, o] (shapeCast S1x2 P5 h5) hs5 : FVec Ideal S1x1 .f32) hb5) (ix2 r (0 : Fin 1))
      = (∑ k : Fin 512, H (ix2 r k) * P4 (ix2 c k)) + P5 (ix2 (0 : Fin 1) c) := by
  refine (addf_apply _ _ _).trans (congrArg₂ (· + ·) ?_ ?_)
  · refine (shapeCast_apply _ hc1 (ix2 r (0 : Fin 1)) (ix1 r) (by
      rw [Shape.rowMajor_val_one, Shape.rowMajor_val_two]; show r.val = r.val * 1 + 0; omega)).trans ?_
    refine (Ideal.multiReduction_add_single _ 0x00000000#32 hr (.inl rfl) rfl (ix1 r)).trans ?_
    show ∑ k : Fin 512, _ = _
    refine Finset.sum_congr rfl fun k _ => ?_
    rw [lift_lane hr r k]
    refine (mulf_apply _ _ _).trans (congrArg (H (ix2 r k) * ·) ?_)
    refine (broadcastTo_1b_ab_apply _ hb4 r k).trans ?_
    refine (slice2_axis0_apply o _ hs4 (0 : Fin 1) k c (by show c.val = o + 0; omega)).trans ?_
    exact congrFun (shapeCast_self P4 h4) _
  · refine (broadcastTo_1b_ab_apply _ hb5 r (0 : Fin 1)).trans ?_
    refine (slice2_axis1_apply o _ hs5 (0 : Fin 1) (0 : Fin 1) c (by show c.val = o + 0; omega)).trans ?_
    exact congrFun (shapeCast_self P5 h5) _

/-! ## The block, entry by entry -/

/-- Entry `(r, c)` of what a grid point leaves in the output block is class `c`'s logit of the block's edge `r`. -/
theorem block_apply (P0 P1 : FVec Ideal S2048x256 .f32) (P2 : FVec Ideal S1024x512 .bf16) (P3 : FVec Ideal S1x512 .f32)
    (P4 : FVec Ideal S2x512 .f32) (P5 : FVec Ideal S1x2 .f32) (r : Fin 2048) (c : Fin 2) :
    Cert.KernelIdeal.Value.E6 (F := Ideal) P0 P1 P2 P3 P4 P5 (ix2 r c)
      = rowLogit (fun j => P0 (ix2 r j)) (fun j => P1 (ix2 r j)) (fun q k => P2 (ix2 q k))
          (fun k => P3 (ix2 (0 : Fin 1) k)) (fun k => P4 (ix2 c k)) (P5 (ix2 (0 : Fin 1) c)) := by
  have hix : Cert.KernelIdeal.Value.ix6_0 (ix2 r c) = ix2 r (0 : Fin 1) := funext fun a => by
    match a with
    | ⟨0, _⟩ => rfl
    | ⟨1, _⟩ => rfl
  show (Cert.KernelIdeal.Value.Cat6_0 (F := Ideal) P0 P1 P2 P3 P4 P5 (Cert.KernelIdeal.Value.csel6_0 (ix2 r c))) (Cert.KernelIdeal.Value.ix6_0 (ix2 r c)) = _
  rw [hix]
  unfold rowLogit
  match c with
  | ⟨0, _⟩ =>
    refine (column_apply (k0_pay2 (F := Ideal) P0 P1 P2 P3) P4 P5 ⟨0, by decide⟩ 0 rfl _ _ _ _ _ _ _ _ r).trans ?_
    exact congrArg (· + _) (Finset.sum_congr rfl fun k _ => congrArg (· * _) (hidden_apply P0 P1 P2 P3 r k))
  | ⟨1, _⟩ =>
    refine (column_apply (k0_pay2 (F := Ideal) P0 P1 P2 P3) P4 P5 ⟨1, by decide⟩ 1 rfl _ _ _ _ _ _ _ _ r).trans ?_
    exact congrArg (· + _) (Finset.sum_congr rfl fun k _ => congrArg (· * _) (hidden_apply P0 P1 P2 P3 r k))

theorem hz : (![0, 0] : Fin 2 → Nat) = fun _ => 0 := funext fun a => by fin_cases a <;> rfl

/-- The same for the output buffer after the body, whose one store covers it: the loads read the whole staged
    blocks, and the store's payload is the block above. -/
theorem out_apply (x0 x1 : FVec Ideal S2048x256 .f32) (x2 : FVec Ideal S1024x512 .bf16) (x3 : FVec Ideal S1x512 .f32)
    (x4 : FVec Ideal S2x512 .f32) (x5 : FVec Ideal S1x2 .f32) (r : Fin 2048) (c : Fin 2) :
    out0_6 (F := Ideal) x0 x1 x2 x3 x4 x5 (ix2 r c)
      = rowLogit (fun j => x0 (ix2 r j)) (fun j => x1 (ix2 r j)) (fun q k => x2 (ix2 q k))
          (fun k => x3 (ix2 (0 : Fin 1) k)) (fun k => x4 (ix2 c k)) (x5 (ix2 (0 : Fin 1) c)) := by
  unfold out0_6
  simp only [View.ld_unit_zero (S := S2048x256) hz, View.ld_unit_zero (S := S1024x512) hz, View.ld_unit_zero (S := S1x512) hz,
    View.ld_unit_zero (S := S2x512) hz, View.ld_unit_zero (S := S1x2) hz]
  exact (Cert.KernelIdeal.Value.canon6_eq (F := Ideal) x0 x1 x2 x3 x4 x5 (ix2 r c)).trans (block_apply x0 x1 x2 x3 x4 x5 r c)

/-- The same at an index of the block given by its two coordinates. -/
theorem out_apply_idx (x0 x1 : FVec Ideal S2048x256 .f32) (x2 : FVec Ideal S1024x512 .bf16) (x3 : FVec Ideal S1x512 .f32)
    (x4 : FVec Ideal S2x512 .f32) (x5 : FVec Ideal S1x2 .f32) (y : S2048x2.Idx) (r : Fin 2048) (c : Fin 2)
    (hr : (y 0).val = r.val) (hc : (y 1).val = c.val) :
    out0_6 (F := Ideal) x0 x1 x2 x3 x4 x5 y
      = rowLogit (fun j => x0 (ix2 r j)) (fun j => x1 (ix2 r j)) (fun q k => x2 (ix2 q k))
          (fun k => x3 (ix2 (0 : Fin 1) k)) (fun k => x4 (ix2 c k)) (x5 (ix2 (0 : Fin 1) c)) := by
  have hy : y = ix2 r c := funext fun a => Fin.ext (by
    match a with
    | ⟨0, _⟩ => exact hr
    | ⟨1, _⟩ => exact hc)
  rw [hy]
  exact out_apply x0 x1 x2 x3 x4 x5 r c

end Cert.EdgeMlp

end
-- ==== Proof.Blocks.lean ====
/-
  From blocks to the whole output array.

  The grid has 128 points; point `t` stages rows 2048·t … 2048·t + 2047 of the two gathered row arrays and of the
  output, and the whole of the weight and bias arrays.  So entry `(r, c)` of the block point `t` writes back is
  the logit of edge 2048·t + r and class `c` computed from the arrays as the region finds them, the 128 blocks tile
  the 262144 edges, and the output array ends as that one function of the operand arrays.
-/
import proofs.«411087_j87471303950752_3_alg».proof.Proof.KernelBlock

set_option maxRecDepth 16384

noncomputable section

namespace Cert.EdgeMlp

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The operand arrays as the region finds them, and the blocks a point stages -/

abbrev hiArr (c : Dev nD) : FVec Ideal S262144x256 .f32 := V m c main_v0
abbrev hjArr (c : Dev nD) : FVec Ideal S262144x256 .f32 := V m c main_v1
abbrev w1Arr (c : Dev nD) : FVec Ideal S1024x512 .bf16 := V m c main_v2
abbrev w2tArr (c : Dev nD) : FVec Ideal S2x512 .f32 := V m c main_v3
abbrev b1Arr (c : Dev nD) : FVec Ideal S1x512 .f32 := V m c main_v4
abbrev b2Arr (c : Dev nD) : FVec Ideal S1x2 .f32 := V m c main_v5

abbrev hiBlk (c : Dev nD) (t : Fin cfg0.N) : FVec Ideal S2048x256 .f32 := iblk m c 0 t
abbrev hjBlk (c : Dev nD) (t : Fin cfg0.N) : FVec Ideal S2048x256 .f32 := iblk m c 1 t
abbrev w1Blk (c : Dev nD) (t : Fin cfg0.N) : FVec Ideal S1024x512 .bf16 := iblk m c 2 t
abbrev b1Blk (c : Dev nD) (t : Fin cfg0.N) : FVec Ideal S1x512 .f32 := iblk m c 3 t
abbrev w2tBlk (c : Dev nD) (t : Fin cfg0.N) : FVec Ideal S2x512 .f32 := iblk m c 4 t
abbrev b2Blk (c : Dev nD) (t : Fin cfg0.N) : FVec Ideal S1x2 .f32 := iblk m c 5 t

/-- Class `cl`'s logit of edge `e`, from the operand arrays as found. -/
def outAt (c : Dev nD) (e : Fin 262144) (cl : Fin 2) : EReal :=
  rowLogit (fun j => hiArr m c (ix2 e j)) (fun j => hjArr m c (ix2 e j)) (fun q k => w1Arr m c (ix2 q k))
    (fun k => b1Arr m c (ix2 (0 : Fin 1) k)) (fun k => w2tArr m c (ix2 cl k)) (b2Arr m c (ix2 (0 : Fin 1) cl))

/-- The whole output array as one function of the operand arrays as found. -/
def outArr (c : Dev nD) : S262144x2.Idx → EReal :=
  fun i => outAt m c ⟨(i 0).val, (i 0).isLt⟩ ⟨(i 1).val, (i 1).isLt⟩

/-- The printed index maps over the 128 points: the two row arrays move with the output along the edges, the weight
    and bias arrays stay, and the output's block index is the point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## A staged block read at an index is the array read where the block sits -/

/-- Rows 2048·t + r of the first gathered array are rows r of its block at point `t`. -/
theorem hiBlk_apply (c : Dev nD) (t : Fin cfg0.N) (r : Fin 2048) (j : Fin 256) (e : Fin 262144) (he : e.val = t.val * 2048 + r.val) :
    hiBlk m c t (ix2 r j) = hiArr m c (ix2 e j) := by
  obtain ⟨a00, a01, -⟩ := idx_facts t
  show V m c main_v0 (((cfg0.win 0).blk t).view.emb (ix2 r j)) = V m c main_v0 (ix2 e j)
  refine congrArg _ (funext fun a => Fin.ext ?_)
  match a with
  | ⟨0, _⟩ => show win0_0.index t (0 : Fin 2) * 2048 + 1 * r.val = e.val; omega
  | ⟨1, _⟩ => show win0_0.index t (1 : Fin 2) * 256 + 1 * j.val = j.val; omega

/-- The same for the second gathered array. -/
theorem hjBlk_apply (c : Dev nD) (t : Fin cfg0.N) (r : Fin 2048) (j : Fin 256) (e : Fin 262144) (he : e.val = t.val * 2048 + r.val) :
    hjBlk m c t (ix2 r j) = hjArr m c (ix2 e j) := by
  obtain ⟨-, -, a10, a11, -⟩ := idx_facts t
  show V m c main_v1 (((cfg0.win 1).blk t).view.emb (ix2 r j)) = V m c main_v1 (ix2 e j)
  refine congrArg _ (funext fun a => Fin.ext ?_)
  match a with
  | ⟨0, _⟩ => show win0_1.index t (0 : Fin 2) * 2048 + 1 * r.val = e.val; omega
  | ⟨1, _⟩ => show win0_1.index t (1 : Fin 2) * 256 + 1 * j.val = j.val; omega

/-- The first weight matrix is staged whole at every point. -/
theorem w1Blk_apply (c : Dev nD) (t : Fin cfg0.N) (q : Fin 1024) (k : Fin 512) :
    w1Blk m c t (ix2 q k) = w1Arr m c (ix2 q k) := by
  obtain ⟨-, -, -, -, a20, a21, -⟩ := idx_facts t
  show V m c main_v2 (((cfg0.win 2).blk t).view.emb (ix2 q k)) = V m c main_v2 (ix2 q k)
  refine congrArg _ (funext fun a => Fin.ext ?_)
  match a with
  | ⟨0, _⟩ => show win0_2.index t (0 : Fin 2) * 1024 + 1 * q.val = q.val; omega
  | ⟨1, _⟩ => show win0_2.index t (1 : Fin 2) * 512 + 1 * k.val = k.val; omega

/-- The first bias row is staged whole at every point. -/
theorem b1Blk_apply (c : Dev nD) (t : Fin cfg0.N) (k : Fin 512) :
    b1Blk m c t (ix2 (0 : Fin 1) k) = b1Arr m c (ix2 (0 : Fin 1) k) := by
  obtain ⟨-, -, -, -, -, -, a30, a31, -⟩ := idx_facts t
  show V m c main_v4 (((cfg0.win 3).blk t).view.emb (ix2 (0 : Fin 1) k)) = V m c main_v4 (ix2 (0 : Fin 1) k)
  refine congrArg _ (funext fun a => Fin.ext ?_)
  match a with
  | ⟨0, _⟩ => show win0_3.index t (0 : Fin 2) * 1 + 1 * 0 = 0; omega
  | ⟨1, _⟩ => show win0_3.index t (1 : Fin 2) * 512 + 1 * k.val = k.val; omega

/-- The transposed second weight matrix is staged whole at every point. -/
theorem w2tBlk_apply (c : Dev nD) (t : Fin cfg0.N) (cl : Fin 2) (k : Fin 512) :
    w2tBlk m c t (ix2 cl k) = w2tArr m c (ix2 cl k) := by
  obtain ⟨-, -, -, -, -, -, -, -, a40, a41, -⟩ := idx_facts t
  show V m c main_v3 (((cfg0.win 4).blk t).view.emb (ix2 cl k)) = V m c main_v3 (ix2 cl k)
  refine congrArg _ (funext fun a => Fin.ext ?_)
  match a with
  | ⟨0, _⟩ => show win0_4.index t (0 : Fin 2) * 2 + 1 * cl.val = cl.val; omega
  | ⟨1, _⟩ => show win0_4.index t (1 : Fin 2) * 512 + 1 * k.val = k.val; omega

/-- The second bias row is staged whole at every point. -/
theorem b2Blk_apply (c : Dev nD) (t : Fin cfg0.N) (cl : Fin 2) :
    b2Blk m c t (ix2 (0 : Fin 1) cl) = b2Arr m c (ix2 (0 : Fin 1) cl) := by
  obtain ⟨-, -, -, -, -, -, -, -, -, -, a50, a51, -⟩ := idx_facts t
  show V m c main_v5 (((cfg0.win 5).blk t).view.emb (ix2 (0 : Fin 1) cl)) = V m c main_v5 (ix2 (0 : Fin 1) cl)
  refine congrArg _ (funext fun a => Fin.ext ?_)
  match a with
  | ⟨0, _⟩ => show win0_5.index t (0 : Fin 2) * 1 + 1 * 0 = 0; omega
  | ⟨1, _⟩ => show win0_5.index t (1 : Fin 2) * 2 + 1 * cl.val = cl.val; omega

/-- Entry `(r, cl)` of the block of point `t` is the logit of edge 2048·t + r, class `cl`, from the arrays as found. -/
theorem block_eq_outAt (c : Dev nD) (t : Fin cfg0.N) (r : Fin 2048) (cl : Fin 2) (e : Fin 262144) (he : e.val = t.val * 2048 + r.val) :
    rowLogit (fun j => hiBlk m c t (ix2 r j)) (fun j => hjBlk m c t (ix2 r j)) (fun q k => w1Blk m c t (ix2 q k))
        (fun k => b1Blk m c t (ix2 (0 : Fin 1) k)) (fun k => w2tBlk m c t (ix2 cl k)) (b2Blk m c t (ix2 (0 : Fin 1) cl))
      = outAt m c e cl := by
  unfold outAt
  simp only [hiBlk_apply m c t r _ e he, hjBlk_apply m c t r _ e he, w1Blk_apply m c t, b1Blk_apply m c t,
    w2tBlk_apply m c t, b2Blk_apply m c t]

/-- What point `t` writes back is block `t` of `outArr`. -/
theorem flushed_eq (c : Dev nD) (t : Fin cfg0.N) :
    (dats m 0 c).flushed 6 t = ((cfg0.win 6).blk t).view.read (Elt Ideal) (outArr m c) := by
  rw [Cert.KernelIdeal.Value.flushed6]
  obtain ⟨-, -, -, -, -, -, -, -, -, -, -, -, a60, a61⟩ := idx_facts t
  funext y
  have hy0 : (y 0).val < 2048 := (y 0).isLt
  have hy1 : (y 1).val < 2 := (y 1).isLt
  show out0_6 (F := Ideal) (hiBlk m c t) (hjBlk m c t) (w1Blk m c t) (b1Blk m c t) (w2tBlk m c t) (b2Blk m c t) y
    = outArr m c (((cfg0.win 6).blk t).view.emb y)
  refine (out_apply_idx (hiBlk m c t) (hjBlk m c t) (w1Blk m c t) (b1Blk m c t) (w2tBlk m c t) (b2Blk m c t) y ⟨(y 0).val, hy0⟩ ⟨(y 1).val, hy1⟩ rfl rfl).trans ?_
  have e0 : ((((cfg0.win 6).blk t).view.emb y) 0).val = t.val * 2048 + (y 0).val := by
    show win0_6.index t (0 : Fin 2) * 2048 + 1 * (y 0).val = _; omega
  have e1 : ((((cfg0.win 6).blk t).view.emb y) 1).val = (y 1).val := by
    show win0_6.index t (1 : Fin 2) * 2 + 1 * (y 1).val = _; omega
  show _ = outAt m c ⟨((((cfg0.win 6).blk t).view.emb y) 0).val, _⟩ ⟨((((cfg0.win 6).blk t).view.emb y) 1).val, _⟩
  have hcl' : (⟨((((cfg0.win 6).blk t).view.emb y) 1).val, ((((cfg0.win 6).blk t).view.emb y) 1).isLt⟩ : Fin 2) = ⟨(y 1).val, hy1⟩ := Fin.ext e1
  rw [hcl']
  exact block_eq_outAt m c t ⟨(y 0).val, hy0⟩ ⟨(y 1).val, hy1⟩ _ e0

/-- An index of the output array is in point `t`'s block iff each coordinate is in the block's range on its axis. -/
theorem mem_blk (t : Fin cfg0.N) (i : S262144x2.Idx) :
    i ∈ ((cfg0.win 6).blk t).view.set ↔ ∀ a : Fin 2, win0_6.index t a * S2048x2.size a ≤ (i a).val ∧ (i a).val < win0_6.index t a * S2048x2.size a + S2048x2.size a := by
  show i ∈ ((View.whole main_v6).slice (win0_6.rect t)).set ↔ _
  rw [View.set_slice_whole, Rect.mem_set_unit]
  exact Iff.rfl

/-- Every edge lies in the block of the point edge / 2048. -/
theorem cover (i : S262144x2.Idx) : ∃ t : Fin cfg0.N, (cfg0.win 6).flush t = true ∧ i ∈ ((cfg0.win 6).blk t).view.set := by
  have hi0 : (i 0).val < 262144 := (i 0).isLt
  have hi1 : (i 1).val < 2 := (i 1).isLt
  have hlt : (i 0).val / 2048 < grid0.N := by rw [N_0]; omega
  obtain ⟨-, -, -, -, -, -, -, -, -, -, -, -, a60, a61⟩ := idx_facts ⟨(i 0).val / 2048, hlt⟩
  refine ⟨⟨(i 0).val / 2048, hlt⟩, flush0_6 _, ?_⟩
  rw [mem_blk]
  intro a
  match a with
  | ⟨0, _⟩ => show win0_6.index ⟨(i 0).val / 2048, hlt⟩ (0 : Fin 2) * 2048 ≤ (i 0).val ∧ (i 0).val < win0_6.index ⟨(i 0).val / 2048, hlt⟩ (0 : Fin 2) * 2048 + 2048; simp only [] at a60; omega
  | ⟨1, _⟩ => show win0_6.index ⟨(i 0).val / 2048, hlt⟩ (1 : Fin 2) * 2 ≤ (i 1).val ∧ (i 1).val < win0_6.index ⟨(i 0).val / 2048, hlt⟩ (1 : Fin 2) * 2 + 2; omega

/-- The output array after the run is `outArr`. -/
theorem final (c : Dev nD) : (dats m 0 c).arrAt 6 cfg0.N = outArr m c :=
  (dats m 0 c).arrAt_eq_of_cover 6 (outArr m c) (fun t _ => flushed_eq m c t) cover

/-- The kernel's run with the output array named: it ends at `outArr`, the arguments unchanged. -/
theorem kernel_run (ρ : Dev nD → PrngReg) :
    θ_run defs (onTc (τ := τ) (main (F := Ideal))) ⟨m, fun _ => 0, ρ⟩ fun r => ∀ c : Dev nD,
      r.2.mem ((c : Thread nD τ).loc main_v6) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.EdgeMlp

end
-- ==== Proof.HostPrefix.lean ====
/-
  What the region's operand arrays hold when the region is entered, as terms of the argument arrays.

  Before the region the host runs fifty operations: the guarded gather of the node table at the source endpoints
  (23 operations), the same at the destination endpoints (23), then the first weight matrix narrowed to the
  16-bit format, the second weight matrix transposed, and the two bias vectors re-shaped to one-row matrices.
  Each theorem reads one of the six resulting arrays off that line of operations: every operation's result is its
  function of the contents of its operands, and an operation that writes another array changes nothing here.
-/
import proofs.«411087_j87471303950752_3_alg».proof.Proof.Gen.KernelIdeal.Frame
import Idealize.ShloMosaic.Lib.StableHlo.Run

noncomputable section

namespace Cert.EdgeMlp

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The rows gathered at the source endpoints: the gather of the node table at the wrapped endpoints, each row kept
    where its wrapped endpoint is a row number of the table and replaced by a fixed word elsewhere. -/
theorem V_v0 (c : Dev nD) :
    (V m c main_v0 : FVec F S262144x256 .f32) =
    select
      (broadcastInDim S262144x256 ![0] bcast_S262144_S262144x256_0
        (Host.reduce IntOp.andi
          (andi (cmpi .sge (broadcastInDim S262144x1 ![0] bcast_S262144_S262144x1_0 (select (cmpi .slt (m ((c : Thread nD τ).loc main_arg1) : IVec S262144 32) (broadcastInDim S262144 ![] bcast_S_S262144 (constantI S_ 32 0#32))) (addi (m ((c : Thread nD τ).loc main_arg1) : IVec S262144 32) (broadcastInDim S262144 ![] bcast_S_S262144 (constantI S_ 32 50000#32))) (m ((c : Thread nD τ).loc main_arg1) : IVec S262144 32)))
                  (broadcastInDim S262144x1 ![] bcast_S_S262144x1 (constantI S_ 32 0#32)))
                (cmpi .sle (broadcastInDim S262144x1 ![0] bcast_S262144_S262144x1_0 (select (cmpi .slt (m ((c : Thread nD τ).loc main_arg1) : IVec S262144 32) (broadcastInDim S262144 ![] bcast_S_S262144 (constantI S_ 32 0#32))) (addi (m ((c : Thread nD τ).loc main_arg1) : IVec S262144 32) (broadcastInDim S262144 ![] bcast_S_S262144 (constantI S_ 32 50000#32))) (m ((c : Thread nD τ).loc main_arg1) : IVec S262144 32)))
                  (broadcastInDim S262144x1 ![0, 1] bcast_S1x1_S262144x1_0_1 (broadcastInDim S1x1 ![1] bcast_S1_S1x1_1 (constantI S1 32 49999#32)))))
          (constantI S_ 1 1#1) reducesTo_S262144x1_S262144_d1 h_S_))
      (Host.gather gather_S50000x256_S262144x1_S262144x256_1_0_n_n_0_1_1256 (m ((c : Thread nD τ).loc main_arg0) : FVec F S50000x256 .f32) (broadcastInDim S262144x1 ![0] bcast_S262144_S262144x1_0 (select (cmpi .slt (m ((c : Thread nD τ).loc main_arg1) : IVec S262144 32) (broadcastInDim S262144 ![] bcast_S_S262144 (constantI S_ 32 0#32))) (addi (m ((c : Thread nD τ).loc main_arg1) : IVec S262144 32) (broadcastInDim S262144 ![] bcast_S_S262144 (constantI S_ 32 50000#32))) (m ((c : Thread nD τ).loc main_arg1) : IVec S262144 32))))
      (broadcastInDim S262144x256 ![] bcast_S_S262144x256 (constant S_ .f32 0x7FC00000#32)) := by
  dsimp only [Gen.V]
  simp only [Gen.hostOps0, Gen.hostOps0_1, Gen.hostOps0_2, List.flatten_cons, List.flatten_nil, List.append_nil, List.cons_append,
    List.nil_append]
  after_results_simp
  simp only [TRef.ofBuf, TRef.toBuf, cast_eq]

/-- The rows gathered at the destination endpoints: the same function of the node table and the destination endpoints. -/
theorem V_v1 (c : Dev nD) :
    (V m c main_v1 : FVec F S262144x256 .f32) =
    select
      (broadcastInDim S262144x256 ![0] bcast_S262144_S262144x256_0
        (Host.reduce IntOp.andi
          (andi (cmpi .sge (broadcastInDim S262144x1 ![0] bcast_S262144_S262144x1_0 (select (cmpi .slt (m ((c : Thread nD τ).loc main_arg2) : IVec S262144 32) (broadcastInDim S262144 ![] bcast_S_S262144 (constantI S_ 32 0#32))) (addi (m ((c : Thread nD τ).loc main_arg2) : IVec S262144 32) (broadcastInDim S262144 ![] bcast_S_S262144 (constantI S_ 32 50000#32))) (m ((c : Thread nD τ).loc main_arg2) : IVec S262144 32)))
                  (broadcastInDim S262144x1 ![] bcast_S_S262144x1 (constantI S_ 32 0#32)))
                (cmpi .sle (broadcastInDim S262144x1 ![0] bcast_S262144_S262144x1_0 (select (cmpi .slt (m ((c : Thread nD τ).loc main_arg2) : IVec S262144 32) (broadcastInDim S262144 ![] bcast_S_S262144 (constantI S_ 32 0#32))) (addi (m ((c : Thread nD τ).loc main_arg2) : IVec S262144 32) (broadcastInDim S262144 ![] bcast_S_S262144 (constantI S_ 32 50000#32))) (m ((c : Thread nD τ).loc main_arg2) : IVec S262144 32)))
                  (broadcastInDim S262144x1 ![0, 1] bcast_S1x1_S262144x1_0_1 (broadcastInDim S1x1 ![1] bcast_S1_S1x1_1 (constantI S1 32 49999#32)))))
          (constantI S_ 1 1#1) reducesTo_S262144x1_S262144_d1 h_S_))
      (Host.gather gather_S50000x256_S262144x1_S262144x256_1_0_n_n_0_1_1256 (m ((c : Thread nD τ).loc main_arg0) : FVec F S50000x256 .f32) (broadcastInDim S262144x1 ![0] bcast_S262144_S262144x1_0 (select (cmpi .slt (m ((c : Thread nD τ).loc main_arg2) : IVec S262144 32) (broadcastInDim S262144 ![] bcast_S_S262144 (constantI S_ 32 0#32))) (addi (m ((c : Thread nD τ).loc main_arg2) : IVec S262144 32) (broadcastInDim S262144 ![] bcast_S_S262144 (constantI S_ 32 50000#32))) (m ((c : Thread nD τ).loc main_arg2) : IVec S262144 32))))
      (broadcastInDim S262144x256 ![] bcast_S_S262144x256 (constant S_ .f32 0x7FC00000#32)) := by
  dsimp only [Gen.V]
  simp only [Gen.hostOps0, Gen.hostOps0_1, Gen.hostOps0_2, List.flatten_cons, List.flatten_nil, List.append_nil, List.cons_append,
    List.nil_append]
  after_results_simp
  simp only [TRef.ofBuf, TRef.toBuf, cast_eq]

/-- The first weight matrix narrowed to the 16-bit format. -/
theorem V_v2 (c : Dev nD) :
    (V m c main_v2 : FVec F S1024x512 .bf16) = truncf .bf16 (m ((c : Thread nD τ).loc main_arg3) : FVec F S1024x512 .f32) Gen.bitsLt_bf16_f32 := by
  dsimp only [Gen.V]
  simp only [Gen.hostOps0, Gen.hostOps0_1, Gen.hostOps0_2, List.flatten_cons, List.flatten_nil, List.append_nil, List.cons_append,
    List.nil_append]
  after_results

/-- The second weight matrix transposed: one row per class. -/
theorem V_v3 (c : Dev nD) :
    (V m c main_v3 : FVec F S2x512 .f32) = transpose S2x512 [1, 0] (m ((c : Thread nD τ).loc main_arg5) : FVec F S512x2 .f32) Gen.transposes_S512x2_S2x512_1_0 := by
  dsimp only [Gen.V]
  simp only [Gen.hostOps0, Gen.hostOps0_1, Gen.hostOps0_2, List.flatten_cons, List.flatten_nil, List.append_nil, List.cons_append,
    List.nil_append]
  after_results

/-- The first bias as a one-row matrix. -/
theorem V_v4 (c : Dev nD) :
    (V m c main_v4 : FVec F S1x512 .f32) = shapeCast S1x512 (m ((c : Thread nD τ).loc main_arg4) : FVec F S512 .f32) Gen.shapeCasts_S512_S1x512 := by
  dsimp only [Gen.V]
  simp only [Gen.hostOps0, Gen.hostOps0_1, Gen.hostOps0_2, List.flatten_cons, List.flatten_nil, List.append_nil, List.cons_append,
    List.nil_append]
  after_results
  rfl

/-- The second bias as a one-row matrix. -/
theorem V_v5 (c : Dev nD) :
    (V m c main_v5 : FVec F S1x2 .f32) = shapeCast S1x2 (m ((c : Thread nD τ).loc main_arg6) : FVec F S2 .f32) Gen.shapeCasts_S2_S1x2 := by
  dsimp only [Gen.V]
  simp only [Gen.hostOps0, Gen.hostOps0_1, Gen.hostOps0_2, List.flatten_cons, List.flatten_nil, List.append_nil, List.cons_append,
    List.nil_append]
  after_results
  rfl

end Cert.EdgeMlp

end
-- ==== Proof.InRange.lean ====
/-
  The index arithmetic of the two row gathers, on 32-bit words.

  An edge's endpoint `x` is a signed 32-bit word with -50000 ≤ x < 50000.  The gather first wraps a negative endpoint
  by adding 50000, then tests the wrapped word against the rows 0 … 49999 of the node table, and replaces a row whose
  test fails by a fixed word.  Here: the precondition gives the bounds on every endpoint (`idx_of_pre`); under the
  bounds the wrapped word passes the test, the sum not leaving the signed range (`wrapped_in_range`); so the
  replacement never happens and the guarded gather is the plain gather at the wrapped indices (`take_eq_gather`).
  No float arithmetic occurs.
-/
import proofs.«411087_j87471303950752_3_alg».proof.Pre_finite_inputs
import proofs.«411087_j87471303950752_3_alg».proof.KernelIdeal
import Idealize.ShloMosaic.Lib.ReduceAll
import Idealize.ShloMosaic.Lib.ValueIdx

noncomputable section

namespace Cert.EdgeMlp

open Idealize.ShloMosaic

/-! ## A conjunction over an axis that meets only ones is one -/

/-- A left fold by `and` over one-bit words, started at 1 and meeting only 1s, is 1. -/
theorem foldl_andi_of_all_one {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, hl =>
    foldl_andi_of_all_one f l _
      (IntOp.andi_eq_one.2 ⟨hi, hl a List.mem_cons_self⟩)
      (fun n hn => hl n (List.mem_cons_of_mem _ hn))

/-- A reduction by `and` from 1 of an array of ones is 1 at every result index. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl]
  exact foldl_andi_of_all_one x _ _ hinit (fun i _ => hx i)

/-- A broadcast along named axes reads, at a result index, ONE operand index, the same for every operand. -/
theorem bcast_read {α : Type} {s t : Shape} {dims : Fin s.rank → Fin t.rank} (h : s.BroadcastsInDim t dims) (j : t.Idx) :
    ∃ k : s.Idx, ∀ x : s.Idx → α, broadcastInDim t dims h x j = x k :=
  ⟨_, fun _ => rfl⟩

/-! ## The bounds the precondition states -/

instance : Subsingleton Cert.Pre_finite_inputs.S_.Idx := ⟨fun a b => funext fun d => d.elim0⟩

/-- The precondition's last four conjuncts: every source and every destination endpoint lies in [-50000, 50000). -/
theorem idx_of_pre {F : FTy → Type} [FloatOps F] [Cert.Pre_finite_inputs.Facts]
    (a0 : FVec F Cert.Pre_finite_inputs.S50000x256 .f32) (a1 a2 : IVec Cert.Pre_finite_inputs.S262144 32)
    (a3 : FVec F Cert.Pre_finite_inputs.S1024x512 .f32) (a4 : FVec F Cert.Pre_finite_inputs.S512 .f32)
    (a5 : FVec F Cert.Pre_finite_inputs.S512x2 .f32) (a6 : FVec F Cert.Pre_finite_inputs.S2 .f32)
    (h : Cert.Pre_finite_inputs.fn (F := F) a0 a1 a2 a3 a4 a5 a6 = fun _ => 1#1) :
    (∀ e : Cert.Pre_finite_inputs.S262144.Idx,
        IntOp.cmpi .sge (a1 e) 4294917296#32 = 1#1 ∧ IntOp.cmpi .slt (a1 e) 50000#32 = 1#1) ∧
    (∀ e : Cert.Pre_finite_inputs.S262144.Idx,
        IntOp.cmpi .sge (a2 e) 4294917296#32 = 1#1 ∧ IntOp.cmpi .slt (a2 e) 50000#32 = 1#1) := by
  have h0 := congrFun h ValueIdx.ix0
  dsimp only [Cert.Pre_finite_inputs.fn, Cert.Pre_finite_inputs.fn_part1, Cert.Pre_finite_inputs.fn_part2] at h0
  obtain ⟨h0, h38⟩ := IntOp.andi_eq_one.1 h0
  obtain ⟨h0, h34⟩ := IntOp.andi_eq_one.1 h0
  obtain ⟨h0, h30⟩ := IntOp.andi_eq_one.1 h0
  obtain ⟨_, h26⟩ := IntOp.andi_eq_one.1 h0
  exact ⟨fun e => ⟨Host.reduce_andi_all _ _ _ _ _ h26 e, Host.reduce_andi_all _ _ _ _ _ h30 e⟩,
    fun e => ⟨Host.reduce_andi_all _ _ _ _ _ h34 e, Host.reduce_andi_all _ _ _ _ _ h38 e⟩⟩

/-! ## The wrapped endpoint is a row of the table -/

/-- For -50000 ≤ x < 50000 as signed words: x + 50000 when x is negative, x otherwise, lies in [0, 49999].
    A negative x has -50000 ≤ x ≤ -1, so the sum is in [0, 49999] and is not reduced modulo 2³². -/
theorem wrapped_in_range (x : BitVec 32) (hlo : IntOp.cmpi .sge x 4294917296#32 = 1#1)
    (hhi : IntOp.cmpi .slt x 50000#32 = 1#1) :
    IntOp.cmpi .sge (Scalar.select (IntOp.cmpi .slt x 0#32) (IntOp.addi x 50000#32) x) 0#32 = 1#1 ∧
    IntOp.cmpi .sle (Scalar.select (IntOp.cmpi .slt x 0#32) (IntOp.addi x 50000#32) x) 49999#32 = 1#1 := by
  have e1 : (4294917296#32 : BitVec 32).toInt = -50000 := by decide
  have e2 : (50000#32 : BitVec 32).toInt = 50000 := by decide
  have e3 : (0#32 : BitVec 32).toInt = 0 := by decide
  have e4 : (49999#32 : BitVec 32).toInt = 49999 := by decide
  rw [IntOp.cmpi_sge, e1] at hlo
  rw [IntOp.cmpi_slt, e2] at hhi
  by_cases hneg : x.toInt < 0
  · have hc : IntOp.cmpi .slt x 0#32 = 1#1 := IntOp.cmpi_slt.2 (by rw [e3]; exact hneg)
    have hadd : (IntOp.addi x 50000#32).toInt = x.toInt + 50000 := by
      unfold IntOp.addi
      rw [BitVec.toInt_add, e2, Int.bmod_def]
      have hp : ((2 ^ 32 : Nat) : Int) = 4294967296 := by norm_num
      rw [hp]
      split <;> omega
    rw [hc, ValueIdx.select_one, IntOp.cmpi_sge, IntOp.cmpi_sle, hadd, e3, e4]
    omega
  · have hc : IntOp.cmpi .slt x 0#32 = 0#1 :=
      ValueIdx.eq_zero_of_ne_one (fun hh => hneg (by have := IntOp.cmpi_slt.1 hh; rwa [e3] at this))
    rw [hc, ValueIdx.select_zero, IntOp.cmpi_sge, IntOp.cmpi_sle, e3, e4]
    omega

/-! ## The guarded gather is the plain gather -/

section Take

open Cert.KernelIdeal
variable {F : FTy → Type} [FloatOps F] [Cert.KernelIdeal.Facts]
open Cert.KernelIdeal.Facts₀ Cert.KernelIdeal.Facts

/-- The row test is 1 at every edge: the conjunction, over the unit axis, of "0 ≤ wrapped" and "wrapped ≤ 49999". -/
theorem mask_eq_one (x1 : IVec S262144 32)
    (h : ∀ e : S262144.Idx, IntOp.cmpi .sge (x1 e) 4294917296#32 = 1#1 ∧ IntOp.cmpi .slt (x1 e) 50000#32 = 1#1)
    (r : S262144.Idx) :
    (Host.reduce IntOp.andi
      (andi (cmpi .sge (broadcastInDim S262144x1 ![0] bcast_S262144_S262144x1_0 (select (cmpi .slt x1 (broadcastInDim S262144 ![] bcast_S_S262144 (constantI S_ 32 0#32))) (addi x1 (broadcastInDim S262144 ![] bcast_S_S262144 (constantI S_ 32 50000#32))) x1))
              (broadcastInDim S262144x1 ![] bcast_S_S262144x1 (constantI S_ 32 0#32)))
            (cmpi .sle (broadcastInDim S262144x1 ![0] bcast_S262144_S262144x1_0 (select (cmpi .slt x1 (broadcastInDim S262144 ![] bcast_S_S262144 (constantI S_ 32 0#32))) (addi x1 (broadcastInDim S262144 ![] bcast_S_S262144 (constantI S_ 32 50000#32))) x1))
              (broadcastInDim S262144x1 ![0, 1] bcast_S1x1_S262144x1_0_1 (broadcastInDim S1x1 ![1] bcast_S1_S1x1_1 (constantI S1 32 49999#32)))))
      (constantI S_ 1 1#1) reducesTo_S262144x1_S262144_d1 h_S_) r = 1#1 := by
  refine reduce_andi_of_all_one _ _ _ _ (fun i => ?_) rfl r
  obtain ⟨e, he⟩ := bcast_read (α := BitVec 32) bcast_S262144_S262144x1_0 i
  have hw := wrapped_in_range (x1 e) (h e).1 (h e).2
  dsimp only [Idealize.ShloMosaic.andi, Idealize.ShloMosaic.cmpi]
  rw [he]
  exact IntOp.andi_eq_one.2 ⟨hw.1, hw.2⟩

/-- With every endpoint in [-50000, 50000) the select that guards the gather always takes the gathered row. -/
theorem take_eq_gather (x0 : FVec F S50000x256 .f32) (x1 : IVec S262144 32)
    (h : ∀ e : S262144.Idx, IntOp.cmpi .sge (x1 e) 4294917296#32 = 1#1 ∧ IntOp.cmpi .slt (x1 e) 50000#32 = 1#1) :
    select
      (broadcastInDim S262144x256 ![0] bcast_S262144_S262144x256_0
        (Host.reduce IntOp.andi
      (andi (cmpi .sge (broadcastInDim S262144x1 ![0] bcast_S262144_S262144x1_0 (select (cmpi .slt x1 (broadcastInDim S262144 ![] bcast_S_S262144 (constantI S_ 32 0#32))) (addi x1 (broadcastInDim S262144 ![] bcast_S_S262144 (constantI S_ 32 50000#32))) x1))
              (broadcastInDim S262144x1 ![] bcast_S_S262144x1 (constantI S_ 32 0#32)))
            (cmpi .sle (broadcastInDim S262144x1 ![0] bcast_S262144_S262144x1_0 (select (cmpi .slt x1 (broadcastInDim S262144 ![] bcast_S_S262144 (constantI S_ 32 0#32))) (addi x1 (broadcastInDim S262144 ![] bcast_S_S262144 (constantI S_ 32 50000#32))) x1))
              (broadcastInDim S262144x1 ![0, 1] bcast_S1x1_S262144x1_0_1 (broadcastInDim S1x1 ![1] bcast_S1_S1x1_1 (constantI S1 32 49999#32)))))
      (constantI S_ 1 1#1) reducesTo_S262144x1_S262144_d1 h_S_))
      (Host.gather gather_S50000x256_S262144x1_S262144x256_1_0_n_n_0_1_1256 x0 (broadcastInDim S262144x1 ![0] bcast_S262144_S262144x1_0 (select (cmpi .slt x1 (broadcastInDim S262144 ![] bcast_S_S262144 (constantI S_ 32 0#32))) (addi x1 (broadcastInDim S262144 ![] bcast_S_S262144 (constantI S_ 32 50000#32))) x1)))
      (broadcastInDim S262144x256 ![] bcast_S_S262144x256 (constant S_ .f32 0x7FC00000#32))
      = (Host.gather gather_S50000x256_S262144x1_S262144x256_1_0_n_n_0_1_1256 x0 (broadcastInDim S262144x1 ![0] bcast_S262144_S262144x1_0 (select (cmpi .slt x1 (broadcastInDim S262144 ![] bcast_S_S262144 (constantI S_ 32 0#32))) (addi x1 (broadcastInDim S262144 ![] bcast_S_S262144 (constantI S_ 32 50000#32))) x1))) := by
  funext j
  obtain ⟨r, hr⟩ := bcast_read (α := BitVec 1) bcast_S262144_S262144x256_0 j
  rw [ValueIdx.select_apply, hr, mask_eq_one x1 h r, ValueIdx.select_one]

end Take

end Cert.EdgeMlp

end
-- ==== Proof.RefValue.lean ====
/-
  The reference program's result, read at an index over the extended reals, is the edge classifier of Spec.lean.

  The reference gathers the two endpoint rows, forms the difference's absolute value and the product, joins the four
  blocks along the feature axis, multiplies with the first weight matrix, adds the first bias, clamps at zero,
  multiplies with the second weight matrix and adds the second bias.  Read at edge e and class c this is rowLogit of the
  two gathered rows of edge e.  The two gathers stay opaque: only their values at (e, j) enter.

  Three facts carry the proof.  A sum over the 1024 features is the sum of four sums over 256, feature 256·n + j being
  entry j of block n (addition on the extended reals is a commutative monoid, so no finiteness is needed).  The joined
  array read at column 256·n + j is block n read at column j.  And on the extended reals the absolute value is
  max x (-x), the clamp's zero word is the number zero.
-/
import proofs.«411087_j87471303950752_3_alg».proof.Proof.Spec
import proofs.«411087_j87471303950752_3_alg».proof.Proof.Gen.ReferenceIdeal.Read
import Mathlib.Algebra.BigOperators.Fin

noncomputable section

namespace Cert.EdgeMlp

open Cert.ReferenceIdeal Cert.ReferenceIdeal.Gen Cert.ReferenceIdeal.Read Idealize.ShloMosaic Idealize.ShloMosaic.StableHlo
open Idealize.ShloMosaic.ValueIdx

/-! ## A sum over 1024 features is four sums over 256 -/

/-- Splitting off the last 256 indices three times: the sum over 256 + 256 + 256 + 256 indices in the order
    ((first + second) + third) + fourth. -/
theorem sum_split4 {M : Type} [AddCommMonoid M] (f : Fin (256 + 256 + 256 + 256) → M) :
    ∑ q, f q = (((∑ j : Fin 256, f (Fin.castAdd 256 (Fin.castAdd 256 (Fin.castAdd 256 j))))
        + ∑ j : Fin 256, f (Fin.castAdd 256 (Fin.castAdd 256 (Fin.natAdd 256 j))))
        + ∑ j : Fin 256, f (Fin.castAdd 256 (Fin.natAdd (256 + 256) j)))
        + ∑ j : Fin 256, f (Fin.natAdd (256 + 256 + 256) j) := by
  rw [Fin.sum_univ_add, Fin.sum_univ_add, Fin.sum_univ_add]

/-- The same with the indices named as rows of the four weight blocks. -/
theorem sum_four_blocks {M : Type} [AddCommMonoid M] (g : Fin 1024 → M) :
    ∑ q : Fin 1024, g q
      = (((∑ j : Fin 256, g (wrow 0 j)) + ∑ j : Fin 256, g (wrow 1 j)) + ∑ j : Fin 256, g (wrow 2 j))
          + ∑ j : Fin 256, g (wrow 3 j) := by
  have h := sum_split4 (M := M) g
  have e0 : ∀ j : Fin 256, (Fin.castAdd 256 (Fin.castAdd 256 (Fin.castAdd 256 j)) : Fin 1024) = wrow 0 j :=
    fun j => Fin.ext (by show j.val = 256 * 0 + j.val; omega)
  have e1 : ∀ j : Fin 256, (Fin.castAdd 256 (Fin.castAdd 256 (Fin.natAdd 256 j)) : Fin 1024) = wrow 1 j :=
    fun j => Fin.ext (by show 256 + j.val = 256 * 1 + j.val; omega)
  have e2 : ∀ j : Fin 256, (Fin.castAdd 256 (Fin.natAdd (256 + 256) j) : Fin 1024) = wrow 2 j :=
    fun j => Fin.ext (by show 256 + 256 + j.val = 256 * 2 + j.val; omega)
  have e3 : ∀ j : Fin 256, (Fin.natAdd (256 + 256 + 256) j : Fin 1024) = wrow 3 j :=
    fun j => Fin.ext (by show 256 + 256 + 256 + j.val = 256 * 3 + j.val; omega)
  simp only [e0, e1, e2, e3] at h
  exact h

/-! ## The joined array read at column 256·n + j is block n read at column j -/

section Join
variable {α : Type} (y0 y1 y2 y3 : S262144x256.Idx → α)
  (h : Shape.Concatenates [S262144x256, S262144x256, S262144x256, S262144x256] S262144x1024 1)
  (e : Fin 262144) (j : Fin 256)

theorem join_block0 :
    concatenate S262144x1024 1 [⟨S262144x256, y0⟩, ⟨S262144x256, y1⟩, ⟨S262144x256, y2⟩, ⟨S262144x256, y3⟩] h
      (ix2 e (wrow 0 j)) = y0 (ix2 e j) :=
  concatenate_apply_piece (t := S262144x1024) (1 : Fin 2)
    [⟨S262144x256, y0⟩, ⟨S262144x256, y1⟩, ⟨S262144x256, y2⟩, ⟨S262144x256, y3⟩] h
    (ix2 e (wrow 0 j)) 0 (by show 0 < 4; omega) S262144x256 y0 rfl rfl
    0 rfl (ix2 e j) (fun b hb => by match b with | ⟨0, _⟩ => rfl | ⟨1, _⟩ => exact absurd rfl hb)
    (by show 0 + j.val = 256 * 0 + j.val; omega)

theorem join_block1 :
    concatenate S262144x1024 1 [⟨S262144x256, y0⟩, ⟨S262144x256, y1⟩, ⟨S262144x256, y2⟩, ⟨S262144x256, y3⟩] h
      (ix2 e (wrow 1 j)) = y1 (ix2 e j) :=
  concatenate_apply_piece (t := S262144x1024) (1 : Fin 2)
    [⟨S262144x256, y0⟩, ⟨S262144x256, y1⟩, ⟨S262144x256, y2⟩, ⟨S262144x256, y3⟩] h
    (ix2 e (wrow 1 j)) 1 (by show 1 < 4; omega) S262144x256 y1 rfl rfl
    256 rfl (ix2 e j) (fun b hb => by match b with | ⟨0, _⟩ => rfl | ⟨1, _⟩ => exact absurd rfl hb)
    (by show 256 + j.val = 256 * 1 + j.val; omega)

theorem join_block2 :
    concatenate S262144x1024 1 [⟨S262144x256, y0⟩, ⟨S262144x256, y1⟩, ⟨S262144x256, y2⟩, ⟨S262144x256, y3⟩] h
      (ix2 e (wrow 2 j)) = y2 (ix2 e j) :=
  concatenate_apply_piece (t := S262144x1024) (1 : Fin 2)
    [⟨S262144x256, y0⟩, ⟨S262144x256, y1⟩, ⟨S262144x256, y2⟩, ⟨S262144x256, y3⟩] h
    (ix2 e (wrow 2 j)) 2 (by show 2 < 4; omega) S262144x256 y2 rfl rfl
    512 rfl (ix2 e j) (fun b hb => by match b with | ⟨0, _⟩ => rfl | ⟨1, _⟩ => exact absurd rfl hb)
    (by show 512 + j.val = 256 * 2 + j.val; omega)

theorem join_block3 :
    concatenate S262144x1024 1 [⟨S262144x256, y0⟩, ⟨S262144x256, y1⟩, ⟨S262144x256, y2⟩, ⟨S262144x256, y3⟩] h
      (ix2 e (wrow 3 j)) = y3 (ix2 e j) :=
  concatenate_apply_piece (t := S262144x1024) (1 : Fin 2)
    [⟨S262144x256, y0⟩, ⟨S262144x256, y1⟩, ⟨S262144x256, y2⟩, ⟨S262144x256, y3⟩] h
    (ix2 e (wrow 3 j)) 3 (by show 3 < 4; omega) S262144x256 y3 rfl rfl
    768 rfl (ix2 e j) (fun b hb => by match b with | ⟨0, _⟩ => rfl | ⟨1, _⟩ => exact absurd rfl hb)
    (by show 768 + j.val = 256 * 3 + j.val; omega)

end Join

/-! ## The hidden layer and the logit -/

/-- The clamped first layer of the reference at edge e, hidden unit k. -/
theorem ref_hidden (x0 : (⟨S50000x256, .f32⟩ : BufTy).Contents (Elt Ideal))
    (x1 x2 : (⟨S262144, .i32⟩ : BufTy).Contents (Elt Ideal))
    (x3 : (⟨S1024x512, .f32⟩ : BufTy).Contents (Elt Ideal)) (x4 : (⟨S512, .f32⟩ : BufTy).Contents (Elt Ideal))
    (e : Fin 262144) (k : Fin 512) :
    val_main_v22 (F := Ideal) x0 x1 x2 x3 x4 (ix2 e k)
      = hidden (fun j => val_main_v6 (F := Ideal) x0 x1 (ix2 e j)) (fun j => val_main_v13 (F := Ideal) x0 x2 (ix2 e j))
          (fun q k => x3 (ix2 q k)) (fun k => x4 (ix1 k)) k := by
  -- row e of the joined features meets column k of the first weight matrix
  have el : ∀ q : Fin 1024, lidx_main_v18 (ix2 e k) q = ix2 e q := fun q =>
    funext fun a => Fin.ext (by match a with | ⟨0, _⟩ => rfl | ⟨1, _⟩ => rfl)
  have er : ∀ q : Fin 1024, ridx_main_v18 (ix2 e k) q = ix2 q k := fun q =>
    funext fun a => Fin.ext (by match a with | ⟨0, _⟩ => rfl | ⟨1, _⟩ => rfl)
  -- the bias, broadcast twice, is read at k
  have eb : idx_main_v19 (idx_main_v20 (ix2 e k)) = ix1 k :=
    funext fun a => Fin.ext (by match a with | ⟨0, _⟩ => rfl)
  rw [val_main_v22_apply, val_main_v21_apply, val_main_v18_apply, val_main_v20_apply, val_main_v19_apply,
    val_main_call0_v0_apply, val_main_call0_cst_apply, eb, sum_four_blocks]
  simp only [el, er]
  unfold val_main_v17
  simp only [join_block0, join_block1, join_block2, join_block3, val_main_v15_apply, val_main_v14_apply,
    val_main_v16_apply, Ideal.hostAbsf_def, Ideal.absf_def, Ideal.subf_def, Ideal.mulf_def, Ideal.addf_def,
    Ideal.maximumf_def, Ideal.ofBits_def, Ideal.ofBits_zero_f32]
  rfl

/-- The reference's result at edge e, class c, is the edge classifier of the two gathered rows of e. -/
theorem ref_eq_rowLogit (x0 : (⟨Cert.ReferenceIdeal.S50000x256, .f32⟩ : BufTy).Contents (Elt Ideal))
    (x1 x2 : (⟨Cert.ReferenceIdeal.S262144, .i32⟩ : BufTy).Contents (Elt Ideal))
    (x3 : (⟨Cert.ReferenceIdeal.S1024x512, .f32⟩ : BufTy).Contents (Elt Ideal))
    (x4 : (⟨Cert.ReferenceIdeal.S512, .f32⟩ : BufTy).Contents (Elt Ideal))
    (x5 : (⟨Cert.ReferenceIdeal.S512x2, .f32⟩ : BufTy).Contents (Elt Ideal))
    (x6 : (⟨Cert.ReferenceIdeal.S2, .f32⟩ : BufTy).Contents (Elt Ideal)) (e : Fin 262144) (c : Fin 2) :
    Cert.ReferenceIdeal.Read.val_main_v26 (F := Ideal) x0 x1 x2 x3 x4 x5 x6 (ValueIdx.ix2 e c)
      = rowLogit (fun j => Cert.ReferenceIdeal.Read.val_main_v6 (F := Ideal) x0 x1 (ValueIdx.ix2 e j))
          (fun j => Cert.ReferenceIdeal.Read.val_main_v13 (F := Ideal) x0 x2 (ValueIdx.ix2 e j))
          (fun q k => x3 (ValueIdx.ix2 q k)) (fun k => x4 (ValueIdx.ix1 k)) (fun k => x5 (ValueIdx.ix2 k c))
          (x6 (ValueIdx.ix1 c)) := by
  -- row e of the hidden layer meets column c of the second weight matrix
  have el : ∀ k : Fin 512, lidx_main_v23 (ix2 e c) k = ix2 e k := fun k =>
    funext fun a => Fin.ext (by match a with | ⟨0, _⟩ => rfl | ⟨1, _⟩ => rfl)
  have er : ∀ k : Fin 512, ridx_main_v23 (ix2 e c) k = ix2 k c := fun k =>
    funext fun a => Fin.ext (by match a with | ⟨0, _⟩ => rfl | ⟨1, _⟩ => rfl)
  -- the class bias, broadcast twice, is read at c
  have eb : idx_main_v24 (idx_main_v25 (ix2 e c)) = ix1 c :=
    funext fun a => Fin.ext (by match a with | ⟨0, _⟩ => rfl)
  rw [val_main_v26_apply, val_main_v23_apply, val_main_v25_apply, val_main_v24_apply, eb]
  simp only [el, er, ref_hidden, Ideal.addf_def]
  rfl

end Cert.EdgeMlp

end
-- ==== Proof.Bridge.lean ====
/-
  The two programs compute one function.

  Under the precondition every endpoint is a row number of the node table after wrapping, so the kernel's guarded
  gathers are the reference's plain gathers; the narrowed first weight matrix is the matrix itself on the extended
  reals, the transposed second weight matrix read at (class, unit) is the matrix at (unit, class), and the biases
  re-shaped to one-row matrices read at (0, k) are the biases at k.  With these the kernel's output array, the logit of
  every edge and class computed from the operand arrays, is the reference's last stage read at the same index.
-/
import proofs.«411087_j87471303950752_3_alg».proof.Proof.Blocks
import proofs.«411087_j87471303950752_3_alg».proof.Proof.HostPrefix
import proofs.«411087_j87471303950752_3_alg».proof.Proof.InRange
import proofs.«411087_j87471303950752_3_alg».proof.Proof.RefValue
import proofs.«411087_j87471303950752_3_alg».proof.Proof.Gen.Pre_finite_inputs
import proofs.«411087_j87471303950752_3_alg».proof.Proof.Gen.ReferenceIdeal.Run
import proofs.«411087_j87471303950752_3_alg».proof.Defs
import Idealize.ShloMosaic.Lib.ValueLayout

noncomputable section

namespace Cert.EdgeMlp

open Idealize.ShloMosaic Idealize.ShloMosaic.TcCoe Idealize.SL.Sem Idealize.ShloMosaic.ValueIdx

section Operands

open Cert.KernelIdeal Cert.KernelIdeal.Gen

variable (m : (ℓ : Loc nD τ sig) → Buf (Elt Ideal) ℓ)

/-- With the source endpoints in range the first gathered array is the reference's first gather. -/
theorem hiArr_eq (c : Dev nD)
    (h : ∀ e : S262144.Idx, IntOp.cmpi .sge ((m ((c : Thread nD τ).loc main_arg1) : IVec S262144 32) e) 4294917296#32 = 1#1
        ∧ IntOp.cmpi .slt ((m ((c : Thread nD τ).loc main_arg1) : IVec S262144 32) e) 50000#32 = 1#1) :
    hiArr m c = Cert.ReferenceIdeal.Read.val_main_v6 (F := Ideal) (m ((c : Thread nD τ).loc main_arg0)) (m ((c : Thread nD τ).loc main_arg1)) := by
  show (V m c main_v0 : FVec Ideal S262144x256 .f32) = _
  rw [V_v0, take_eq_gather (F := Ideal) _ _ h]
  rfl

/-- With the destination endpoints in range the second gathered array is the reference's second gather. -/
theorem hjArr_eq (c : Dev nD)
    (h : ∀ e : S262144.Idx, IntOp.cmpi .sge ((m ((c : Thread nD τ).loc main_arg2) : IVec S262144 32) e) 4294917296#32 = 1#1
        ∧ IntOp.cmpi .slt ((m ((c : Thread nD τ).loc main_arg2) : IVec S262144 32) e) 50000#32 = 1#1) :
    hjArr m c = Cert.ReferenceIdeal.Read.val_main_v13 (F := Ideal) (m ((c : Thread nD τ).loc main_arg0)) (m ((c : Thread nD τ).loc main_arg2)) := by
  show (V m c main_v1 : FVec Ideal S262144x256 .f32) = _
  rw [V_v1, take_eq_gather (F := Ideal) _ _ h]
  rfl

/-- The narrowed first weight matrix is the matrix: a change of format is the identity on the extended reals. -/
theorem w1Arr_apply (c : Dev nD) (q : Fin 1024) (k : Fin 512) :
    w1Arr m c (ix2 q k) = (m ((c : Thread nD τ).loc main_arg3) : FVec Ideal S1024x512 .f32) (ix2 q k) := by
  show (V m c main_v2 : FVec Ideal S1024x512 .bf16) (ix2 q k) = _
  rw [V_v2]
  rfl

/-- The transposed second weight matrix at (class, unit) is the matrix at (unit, class). -/
theorem w2tArr_apply (c : Dev nD) (cl : Fin 2) (k : Fin 512) :
    w2tArr m c (ix2 cl k) = (m ((c : Thread nD τ).loc main_arg5) : FVec Ideal S512x2 .f32) (ix2 k cl) := by
  show (V m c main_v3 : FVec Ideal S2x512 .f32) (ix2 cl k) = _
  rw [V_v3]
  exact transpose_ix2_apply _ _ cl k

/-- The first bias as a one-row matrix, at (0, k), is the bias at k. -/
theorem b1Arr_apply (c : Dev nD) (k : Fin 512) :
    b1Arr m c (ix2 (0 : Fin 1) k) = (m ((c : Thread nD τ).loc main_arg4) : FVec Ideal S512 .f32) (ix1 k) := by
  show (V m c main_v4 : FVec Ideal S1x512 .f32) (ix2 (0 : Fin 1) k) = _
  rw [V_v4]
  exact shapeCast_a_1a_apply _ _ (0 : Fin 1) k

/-- The second bias as a one-row matrix, at (0, class), is the bias at the class. -/
theorem b2Arr_apply (c : Dev nD) (cl : Fin 2) :
    b2Arr m c (ix2 (0 : Fin 1) cl) = (m ((c : Thread nD τ).loc main_arg6) : FVec Ideal S2 .f32) (ix1 cl) := by
  show (V m c main_v5 : FVec Ideal S1x2 .f32) (ix2 (0 : Fin 1) cl) = _
  rw [V_v5]
  exact shapeCast_a_1a_apply _ _ (0 : Fin 1) cl

/-- Under the precondition the kernel's output array is the reference's last stage of the argument arrays. -/
theorem outArr_eq_ref (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) = fun _ => 1#1) :
    outArr m c = Cert.ReferenceIdeal.Read.val_main_v26 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  obtain ⟨h1, h2⟩ := idx_of_pre (F := Ideal) _ _ _ _ _ _ _ hpre
  funext i
  obtain ⟨e, cl, rfl⟩ : ∃ (e : Fin 262144) (cl : Fin 2), i = ix2 e cl := ⟨i 0, i 1, eq_ix2 i⟩
  refine Eq.trans ?_ (ref_eq_rowLogit _ _ _ _ _ _ _ e cl).symm
  show outAt m c e cl = _
  unfold outAt
  have ha := hiArr_eq m c h1
  have hb := hjArr_eq m c h2
  exact congr (congr (congr (congr (congr (congrArg rowLogit (funext fun j => congrFun ha (ix2 e j)))
    (funext fun j => congrFun hb (ix2 e j))) (funext fun q => funext fun k => w1Arr_apply m c q k))
    (funext fun k => b1Arr_apply m c k)) (funext fun k => w2tArr_apply m c cl k)) (b2Arr_apply m c cl)

end Operands

/-! ## The claims -/

theorem frame_ref : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the logit array of the argument arrays. -/
theorem algebraic : Cert.algebraic_KernelIdeal_ReferenceIdeal := by
  intro m ρ m' ρ' hpre hagree
  refine ⟨fun c => outArr m c, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v26_eq, a0, a1, a2, a3, a4, a5, a6]
  exact (outArr_eq_ref m c (hpre c)).symm

end Cert.EdgeMlp

end
-- ==== Proof.lean ====
/-
  An edge classifier of a graph network: for each of 262144 edges the rows of the node table at the edge's two
  endpoints are gathered, their four feature blocks (the rows, the absolute difference, the product) go through a
  two-layer perceptron with a clamp at zero in between, and two logits per edge come out.

  The kernel gathers on the host with a guard (a row whose endpoint, after wrapping a negative one, is no row number
  of the table is replaced by a fixed word) and computes the perceptron tile by tile, the first layer as four
  products of 256-row blocks of the weight matrix and the second layer as lane sums; the reference gathers without
  the guard and multiplies the joined 1024 features with the whole matrices.  Under the precondition every endpoint
  lies in [-50000, 50000), the guard never replaces a row, and on the extended reals both programs end with the same
  array: a sum over 1024 features is the sum of its four blocks of 256, whatever the bracketing, and a change of
  float format is the identity.  The three frames are the generated runs; no idealization rule was applied.
-/
import proofs.«411087_j87471303950752_3_alg».proof.Defs
import proofs.«411087_j87471303950752_3_alg».proof.Proof.Gen.Kernel
import proofs.«411087_j87471303950752_3_alg».proof.Proof.Gen.Kernel.Skeleton
import proofs.«411087_j87471303950752_3_alg».proof.Proof.Gen.Kernel.Launch
import proofs.«411087_j87471303950752_3_alg».proof.Proof.Gen.Kernel.Points
import proofs.«411087_j87471303950752_3_alg».proof.Proof.Gen.Kernel.Frame
import proofs.«411087_j87471303950752_3_alg».proof.Proof.Gen.KernelIdeal
import proofs.«411087_j87471303950752_3_alg».proof.Proof.Gen.KernelIdeal.Skeleton
import proofs.«411087_j87471303950752_3_alg».proof.Proof.Gen.KernelIdeal.Launch
import proofs.«411087_j87471303950752_3_alg».proof.Proof.Gen.KernelIdeal.Points
import proofs.«411087_j87471303950752_3_alg».proof.Proof.Gen.KernelIdeal.Frame
import proofs.«411087_j87471303950752_3_alg».proof.Proof.Gen.ReferenceIdeal
import proofs.«411087_j87471303950752_3_alg».proof.Proof.Gen.Pre_finite_inputs
import proofs.«411087_j87471303950752_3_alg».proof.Proof.Gen.KernelIdeal.Value
import proofs.«411087_j87471303950752_3_alg».proof.Proof.Gen.ReferenceIdeal.Run
import proofs.«411087_j87471303950752_3_alg».proof.Proof.Gen.ReferenceIdeal.Read
import proofs.«411087_j87471303950752_3_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.EdgeMlp.frame_ref,
  trivial,
  Cert.EdgeMlp.algebraic⟩

end Cert.Proof

end
